-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S20000x128 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : IVec S1600000 32) (main_arg13 : IVec S1600000 32) (main_arg14 : IVec S1600000 32) (main_arg15 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩

abbrev nBuf : Space → Nat
  | .hbm => 74
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S20000x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1x128, .f32⟩
  | .hbm, ⟨17, _⟩ => ⟨S100000x128, .f32⟩
  | .hbm, ⟨18, _⟩ => ⟨S1x128, .f32⟩
  | .hbm, ⟨19, _⟩ => ⟨S20000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S20000x128, .f32⟩
  | .hbm, ⟨31, _⟩ => ⟨S1600000x1, .i32⟩
  | .hbm, ⟨32, _⟩ => ⟨S20000x128, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S20000, .f32⟩
  | .hbm, ⟨37, _⟩ => ⟨S1600000x1, .i32⟩
  | .hbm, ⟨38, _⟩ => ⟨S20000, .f32⟩
  | .hbm, ⟨39, _⟩ => ⟨S_, .f32⟩
  | .hbm, ⟨40, _⟩ => ⟨S20000, .f32⟩
  | .hbm, ⟨41, _⟩ => ⟨S20000, .f32⟩
  | .hbm, ⟨42, _⟩ => ⟨S20000x1, .f32⟩
  | .hbm, ⟨43, _⟩ => ⟨S20000x128, .f32⟩
  | .hbm, ⟨44, _⟩ => ⟨S20000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S20000x128, .f32⟩
  | .hbm, ⟨72, _⟩ => ⟨S1x128, .f32⟩
  | .hbm, ⟨73, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  broadcasts_S1x128_S4000x128 : S1x128.Broadcasts S4000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S4000x128_S4000x128 : S4000x128.ShapeCasts S4000x128
  shapeCasts_S5000x128_S5000x128 : S5000x128.ShapeCasts S5000x128
  dot_S5000x64_S64x128_S5000x128_1_0_0_1_n_n_wf : DotDims.WF S5000x64 S64x128 S5000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  scatter_S20000_S1600000x1_S1600000_n_0_0_1_wf : ScatterDims.WF S20000 S1600000x1 S1600000 [] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S20000x128.size a
  hwx1_3 : ∀ i : grid1.Coords, EltTy.bits .f32 = 32 ∨ (Rect.block (s := S20000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S20000x128.size a
  hwx2_5 : ∀ i : grid2.Coords, EltTy.bits .f32 = 32 ∨ (Rect.block (s := S20000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S20000x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S20000x128, .f32⟩
  | .hbm, ⟨24, _⟩ => ⟨S1x128, .f32⟩
  | .hbm, ⟨25, _⟩ => ⟨S20000x128, .f32⟩
  | .hbm, ⟨26, _⟩ => ⟨S20000x128, .f32⟩
  | .hbm, ⟨27, _⟩ => ⟨S_, .f32⟩
  | .hbm, ⟨28, _⟩ => ⟨S20000x128, .f32⟩
  | .hbm, ⟨29, _⟩ => ⟨S20000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S20000x128, .f32⟩
  | .hbm, ⟨41, _⟩ => ⟨S1600000x1, .i32⟩
  | .hbm, ⟨42, _⟩ => ⟨S20000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S20000, .f32⟩
  | .hbm, ⟨47, _⟩ => ⟨S1600000x1, .i32⟩
  | .hbm, ⟨48, _⟩ => ⟨S20000, .f32⟩
  | .hbm, ⟨49, _⟩ => ⟨S_, .f32⟩
  | .hbm, ⟨50, _⟩ => ⟨S20000, .f32⟩
  | .hbm, ⟨51, _⟩ => ⟨S20000, .f32⟩
  | .hbm, ⟨52, _⟩ => ⟨S20000x1, .f32⟩
  | .hbm, ⟨53, _⟩ => ⟨S20000x128, .f32⟩
  | .hbm, ⟨54, _⟩ => ⟨S20000x128, .f32⟩
  | .hbm, ⟨55, _⟩ => ⟨S20000x128, .f32⟩
  | .hbm, ⟨56, _⟩ => ⟨S1x128, .f32⟩
  | .hbm, ⟨57, _⟩ => ⟨S20000x128, .f32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S_, .f32⟩
  | .hbm, ⟨75, _⟩ => ⟨S1600000, .f32⟩
  | .hbm, ⟨76, _⟩ => ⟨S_, .f32⟩
  | .hbm, ⟨77, _⟩ => ⟨S100000, .f32⟩
  | .hbm, ⟨78, _⟩ => ⟨S1600000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_4 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x64_S64x128_S100000x128_1_0_0_1_n_n_wf : DotDims.WF S100000x64 S64x128 S100000x128 [1] [0] [0] [1] [] []
  dot_S20000x128_S128x128_S20000x128_1_0_0_1_n_n_wf : DotDims.WF S20000x128 S128x128 S20000x128 [1] [0] [0] [1] [] []
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  scatter_S20000_S1600000x1_S1600000_n_0_0_1_wf : ScatterDims.WF S20000 S1600000x1 S1600000 [] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefTerms.lean ====
/-
  The reference's stages regrouped by what they compute, each as a function of the arrays it reads, so that the
  four kernel regions and the host operations between them can be matched against them piece by piece.

  * a projection: x ↦ max (x · W + b, 0), row by row (the generated stages `val_main_v4`, `val_main_v9`);
  * a segment mean: rows gathered along the edge list's sources, added up per destination and divided by the number
    of edges that arrive there, that number taken to be at least one (`segMeanGames`, `segMeanUsers`);
  * a relation combine: (mean · Wl + b) + self · Wr (`combineGames`, `combineUsers`).

  Read at an index on the extended reals each dense piece is a finite sum of products; the gathers and scatters are
  never opened: both programs apply the same ones to the same arrays.
-/
import proofs.«179588_j89412629168563_1_alg».proof.Proof.Gen.ReferenceIdeal.Read

noncomputable section

namespace Cert.ReferenceIdeal.Terms

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx (ix1 ix2)

variable {F : FTy → Type} [FloatOps F]

/-! ## The pieces -/

/-- The mean over the edges into each game row of the user rows `hu` the edges start from: the gathered rows summed
    per destination, over the edge count per destination raised to at least one. -/
def segMeanGames (hu : (⟨S100000x128, .f32⟩ : BufTy).Contents (Elt F)) (src dst : (⟨S1600000, .i32⟩ : BufTy).Contents (Elt F)) : (⟨S20000x128, .f32⟩ : BufTy).Contents (Elt F) :=
  Host.divf
    (Host.scatterAdd scatter_S20000x128_S1600000x1_S1600000x128_1_0_0_1 (val_main_v17 (F := F)) (val_main_v18 (F := F) dst)
      (Host.gather gather_S100000x128_S1600000x1_S1600000x128_1_0_n_n_0_1_1128 hu (val_main_v15 (F := F) src)))
    (val_main_v27 (F := F) dst)

/-- The mean over the edges into each user row of the game rows `hg` the edges start from. -/
def segMeanUsers (hg : (⟨S20000x128, .f32⟩ : BufTy).Contents (Elt F)) (src dst : (⟨S1600000, .i32⟩ : BufTy).Contents (Elt F)) : (⟨S100000x128, .f32⟩ : BufTy).Contents (Elt F) :=
  Host.divf
    (Host.scatterAdd scatter_S100000x128_S1600000x1_S1600000x128_1_0_0_1 (val_main_v42 (F := F)) (val_main_v43 (F := F) dst)
      (Host.gather gather_S20000x128_S1600000x1_S1600000x128_1_0_n_n_0_1_1128 hg (val_main_v40 (F := F) src)))
    (val_main_v52 (F := F) dst)

/-- The game rows' output: (mean · Wl + bias) + self · Wr. -/
def combineGames (mean self : (⟨S20000x128, .f32⟩ : BufTy).Contents (Elt F)) (wl wr : (⟨S128x128, .f32⟩ : BufTy).Contents (Elt F)) (bias : (⟨S128, .f32⟩ : BufTy).Contents (Elt F)) : (⟨S20000x128, .f32⟩ : BufTy).Contents (Elt F) :=
  addf (addf (val_main_v5 (F := F) mean wl) (val_main_v31 (F := F) bias)) (val_main_v5 (F := F) self wr)

/-- A [100000,128] · [128,128] product on the host. -/
def dotUsers (l : (⟨S100000x128, .f32⟩ : BufTy).Contents (Elt F)) (r : (⟨S128x128, .f32⟩ : BufTy).Contents (Elt F)) : (⟨S100000x128, .f32⟩ : BufTy).Contents (Elt F) :=
  Host.dotGeneral dot_S100000x128_S128x128_S100000x128_1_0_0_1_n_n none l r

/-- The user rows' output: (mean · Wl + bias) + self · Wr. -/
def combineUsers (mean self : (⟨S100000x128, .f32⟩ : BufTy).Contents (Elt F)) (wl wr : (⟨S128x128, .f32⟩ : BufTy).Contents (Elt F)) (bias : (⟨S128, .f32⟩ : BufTy).Contents (Elt F)) : (⟨S100000x128, .f32⟩ : BufTy).Contents (Elt F) :=
  addf (addf (dotUsers (F := F) mean wl) (val_main_v56 (F := F) bias)) (dotUsers (F := F) self wr)

/-! ## The reference's results are these pieces composed -/

theorem mean_games_eq (x0 : (⟨S100000x64, .f32⟩ : BufTy).Contents (Elt F)) (x2 : (⟨S64x128, .f32⟩ : BufTy).Contents (Elt F)) (x3 : (⟨S128, .f32⟩ : BufTy).Contents (Elt F)) (x12 x13 : (⟨S1600000, .i32⟩ : BufTy).Contents (Elt F)) :
    val_main_v28 (F := F) x0 x2 x3 x12 x13 = segMeanGames (val_main_v4 (F := F) x0 x2 x3) x12 x13 := rfl

theorem mean_users_eq (x1 : (⟨S20000x128, .f32⟩ : BufTy).Contents (Elt F)) (x4 : (⟨S128x128, .f32⟩ : BufTy).Contents (Elt F)) (x5 : (⟨S128, .f32⟩ : BufTy).Contents (Elt F)) (x14 x15 : (⟨S1600000, .i32⟩ : BufTy).Contents (Elt F)) :
    val_main_v53 (F := F) x1 x4 x5 x14 x15 = segMeanUsers (val_main_v9 (F := F) x1 x4 x5) x14 x15 := rfl

/-- The games' result of the reference. -/
theorem out_games_eq (x0 : (⟨S100000x64, .f32⟩ : BufTy).Contents (Elt F)) (x1 : (⟨S20000x128, .f32⟩ : BufTy).Contents (Elt F)) (x2 : (⟨S64x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x12 x13 : (⟨S1600000, .i32⟩ : BufTy).Contents (Elt F)) :
    val_main_v34 (F := F) x0 x1 x2 x3 x4 x5 x6 x7 x8 x12 x13
      = combineGames (segMeanGames (val_main_v4 (F := F) x0 x2 x3) x12 x13) (val_main_v9 (F := F) x1 x4 x5) x6 x8 x7 := rfl

/-- The users' result of the reference. -/
theorem out_users_eq (x0 : (⟨S100000x64, .f32⟩ : BufTy).Contents (Elt F)) (x1 : (⟨S20000x128, .f32⟩ : BufTy).Contents (Elt F)) (x2 : (⟨S64x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x14 x15 : (⟨S1600000, .i32⟩ : BufTy).Contents (Elt F)) :
    val_main_v59 (F := F) x0 x1 x2 x3 x4 x5 x9 x10 x11 x14 x15
      = combineUsers (segMeanUsers (val_main_v9 (F := F) x1 x4 x5) x14 x15) (val_main_v4 (F := F) x0 x2 x3) x9 x11 x10 := rfl

/-! ## The dense pieces read at an index, on the extended reals -/

theorem lidx_users64 (r : Fin 100000) (q : Fin 128) (k : Fin 64) : lidx_main_v0 (ix2 r q) k = ix2 r k :=
  funext fun a => Fin.ext (by match a with | ⟨0, _⟩ => rfl | ⟨1, _⟩ => rfl)
theorem ridx_users64 (r : Fin 100000) (q : Fin 128) (k : Fin 64) : ridx_main_v0 (ix2 r q) k = ix2 k q :=
  funext fun a => Fin.ext (by match a with | ⟨0, _⟩ => rfl | ⟨1, _⟩ => rfl)
theorem lidx_games (r : Fin 20000) (q : Fin 128) (k : Fin 128) : lidx_main_v5 (ix2 r q) k = ix2 r k :=
  funext fun a => Fin.ext (by match a with | ⟨0, _⟩ => rfl | ⟨1, _⟩ => rfl)
theorem ridx_games (r : Fin 20000) (q : Fin 128) (k : Fin 128) : ridx_main_v5 (ix2 r q) k = ix2 k q :=
  funext fun a => Fin.ext (by match a with | ⟨0, _⟩ => rfl | ⟨1, _⟩ => rfl)

/-- A bias row broadcast down the users' rows, read at (r, q), is the bias at q. -/
theorem bias_users_apply (b : (⟨S128, .f32⟩ : BufTy).Contents (Elt F)) (r : Fin 100000) (q : Fin 128) : val_main_v2 (F := F) b (ix2 r q) = b (ix1 q) := by
  rw [val_main_v2_apply, val_main_v1_apply]
  exact congrArg b (funext fun a => Fin.ext (by match a with | ⟨0, _⟩ => rfl))
theorem bias_users'_apply (b : (⟨S128, .f32⟩ : BufTy).Contents (Elt F)) (r : Fin 100000) (q : Fin 128) : val_main_v56 (F := F) b (ix2 r q) = b (ix1 q) := by
  rw [val_main_v56_apply, val_main_v55_apply]
  exact congrArg b (funext fun a => Fin.ext (by match a with | ⟨0, _⟩ => rfl))
/-- The same down the games' rows. -/
theorem bias_games_apply (b : (⟨S128, .f32⟩ : BufTy).Contents (Elt F)) (r : Fin 20000) (q : Fin 128) : val_main_v7 (F := F) b (ix2 r q) = b (ix1 q) := by
  rw [val_main_v7_apply, val_main_v6_apply]
  exact congrArg b (funext fun a => Fin.ext (by match a with | ⟨0, _⟩ => rfl))
theorem bias_games'_apply (b : (⟨S128, .f32⟩ : BufTy).Contents (Elt F)) (r : Fin 20000) (q : Fin 128) : val_main_v31 (F := F) b (ix2 r q) = b (ix1 q) := by
  rw [val_main_v31_apply, val_main_v30_apply]
  exact congrArg b (funext fun a => Fin.ext (by match a with | ⟨0, _⟩ => rfl))

/-- The users' projection at (r, q): the positive part of row r of x against column q of W, plus the bias at q. -/
theorem proj_users_apply (x : (⟨S100000x64, .f32⟩ : BufTy).Contents (Elt Ideal)) (w : (⟨S64x128, .f32⟩ : BufTy).Contents (Elt Ideal)) (b : (⟨S128, .f32⟩ : BufTy).Contents (Elt Ideal)) (r : Fin 100000) (q : Fin 128) :
    val_main_v4 (F := Ideal) x w b (ix2 r q)
      = max ((∑ k : Fin 64, x (ix2 r k) * w (ix2 k q)) + b (ix1 q)) (Ideal.ofBits .f32 0x00000000#32) := by
  rw [val_main_v4_apply, val_main_v3_apply, val_main_v0_apply, bias_users_apply, val_main_call0_v0_apply, val_main_call0_cst_apply]
  simp only [lidx_users64, ridx_users64, Ideal.maximumf_def, Ideal.addf_def, Ideal.ofBits_def]

/-- The games' projection at (r, q). -/
theorem proj_games_apply (x : (⟨S20000x128, .f32⟩ : BufTy).Contents (Elt Ideal)) (w : (⟨S128x128, .f32⟩ : BufTy).Contents (Elt Ideal)) (b : (⟨S128, .f32⟩ : BufTy).Contents (Elt Ideal)) (r : Fin 20000) (q : Fin 128) :
    val_main_v9 (F := Ideal) x w b (ix2 r q)
      = max ((∑ k : Fin 128, x (ix2 r k) * w (ix2 k q)) + b (ix1 q)) (Ideal.ofBits .f32 0x00000000#32) := by
  rw [val_main_v9_apply, val_main_v8_apply, val_main_v5_apply, bias_games_apply, val_main_call1_v0_apply, val_main_call1_cst_apply]
  simp only [lidx_games, ridx_games, Ideal.maximumf_def, Ideal.addf_def, Ideal.ofBits_def]

/-- The games' combine at (r, q). -/
theorem combine_games_apply (mean self : (⟨S20000x128, .f32⟩ : BufTy).Contents (Elt Ideal)) (wl wr : (⟨S128x128, .f32⟩ : BufTy).Contents (Elt Ideal)) (bias : (⟨S128, .f32⟩ : BufTy).Contents (Elt Ideal)) (r : Fin 20000) (q : Fin 128) :
    combineGames (F := Ideal) mean self wl wr bias (ix2 r q)
      = ((∑ k : Fin 128, mean (ix2 r k) * wl (ix2 k q)) + bias (ix1 q)) + ∑ k : Fin 128, self (ix2 r k) * wr (ix2 k q) := by
  unfold combineGames
  rw [ValueIdx.addf_apply, ValueIdx.addf_apply, val_main_v5_apply, val_main_v5_apply, bias_games'_apply]
  simp only [lidx_games, ridx_games]

/-- The [100000,128] · [128,128] product at (r, q). -/
theorem dot_users_apply (l : (⟨S100000x128, .f32⟩ : BufTy).Contents (Elt Ideal)) (w : (⟨S128x128, .f32⟩ : BufTy).Contents (Elt Ideal)) (r : Fin 100000) (q : Fin 128) :
    dotUsers (F := Ideal) l w (ix2 r q) = ∑ k : Fin 128, l (ix2 r k) * w (ix2 k q) := by
  unfold dotUsers
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact lhs_main_v54_0 _ _
    | ⟨1, _⟩ => exact (lhs_main_v54_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (rhs_main_v54_0 _ _).trans hk
    | ⟨1, _⟩ => exact rhs_main_v54_1 _ _)
  rw [el, er]

/-- The users' combine at (r, q). -/
theorem combine_users_apply (mean self : (⟨S100000x128, .f32⟩ : BufTy).Contents (Elt Ideal)) (wl wr : (⟨S128x128, .f32⟩ : BufTy).Contents (Elt Ideal)) (bias : (⟨S128, .f32⟩ : BufTy).Contents (Elt Ideal)) (r : Fin 100000) (q : Fin 128) :
    combineUsers (F := Ideal) mean self wl wr bias (ix2 r q)
      = ((∑ k : Fin 128, mean (ix2 r k) * wl (ix2 k q)) + bias (ix1 q)) + ∑ k : Fin 128, self (ix2 r k) * wr (ix2 k q) := by
  unfold combineUsers
  rw [ValueIdx.addf_apply, ValueIdx.addf_apply, dot_users_apply, dot_users_apply, bias_users'_apply]

end Cert.ReferenceIdeal.Terms

end
-- ==== Proof.Boundaries.lean ====
import proofs.«179588_j89412629168563_1_alg».proof.Proof.Gen.KernelIdeal.Frame
import proofs.«179588_j89412629168563_1_alg».proof.Proof.RefTerms
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Boundaries

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

variable {F : FTy → Type} [FloatOps F]
variable (m : (ℓ : Loc nD τ sig) → Buf (Elt F) ℓ) (ρ : Dev nD → PrngReg)

/-! ## A stretch of host operations leaves alone every buffer none of its operations writes -/

/-- Closes `after ops V b = V b` for one of the four host stretches and a buffer `b` that is the result of none of
    its operations: each operation writes one buffer, and `b` differs from each of them. -/
local macro "host_untouched" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first, second and fourth stretch are one reshape each: they write their one result and nothing else. -/
theorem host0_keeps (V : Valuation τ sig (Elt F)) (b : Ref sig .tc) (hb : b ≠ main_v0) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem host1_keeps (V : Valuation τ sig (Elt F)) (b : Ref sig .tc) (hb : b ≠ main_v2) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))
theorem host3_keeps (V : Valuation τ sig (Elt F)) (b : Ref sig .tc) (hb : b ≠ main_v44) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- Each of those reshapes turns a bias vector of 128 entries into a one-row matrix: row 0, column q of the result is
    entry q of the vector. -/
theorem row_of_vector (x : (⟨S128, .f32⟩ : BufTy).Contents (Elt F)) (q : Fin 128) :
    shapeCast S1x128 x shapeCasts_S128_S1x128 (ix2 (0 : Fin 1) q) = x (ix1 q) :=
  ValueIdx.shapeCast_a_1a_apply x shapeCasts_S128_S1x128 0 q

/-! ## A buffer that is still as launched

A buffer that is no array of the regions run so far and no result of the host operations run so far holds the launch
memory's contents. -/

theorem W1_launch (c : Dev nD) (b : Ref sig .tc) (hv0 : b ≠ main_v0) :
    W1 m ρ c (Proc.devRef .tc b) = m ((c : Thread nD τ).loc b) :=
  host0_keeps (W0 m ρ c) b hv0

theorem W2_launch (c : Dev nD) (b : Ref sig .tc) (h0 : ∀ w, Pipeline.arrRef spec0 w ≠ b) (hv0 : b ≠ main_v0) :
    W2 m ρ c (Proc.devRef .tc b) = m ((c : Thread nD τ).loc b) :=
  (W2_of_ne m ρ c b h0).trans (W1_launch m ρ c b hv0)

theorem W3_launch (c : Dev nD) (b : Ref sig .tc) (h0 : ∀ w, Pipeline.arrRef spec0 w ≠ b) (hv0 : b ≠ main_v0)
    (hv2 : b ≠ main_v2) : W3 m ρ c (Proc.devRef .tc b) = m ((c : Thread nD τ).loc b) :=
  (host1_keeps (W2 m ρ c) b hv2).trans (W2_launch m ρ c b h0 hv0)

theorem W4_launch (c : Dev nD) (b : Ref sig .tc) (h0 : ∀ w, Pipeline.arrRef spec0 w ≠ b)
    (h1 : ∀ w, Pipeline.arrRef spec1 w ≠ b) (hv0 : b ≠ main_v0) (hv2 : b ≠ main_v2) :
    W4 m ρ c (Proc.devRef .tc b) = m ((c : Thread nD τ).loc b) :=
  (W4_of_ne m ρ c b h1).trans (W3_launch m ρ c b h0 hv0 hv2)

theorem W6_launch (c : Dev nD) (b : Ref sig .tc) (h0 : ∀ w, Pipeline.arrRef spec0 w ≠ b)
    (h1 : ∀ w, Pipeline.arrRef spec1 w ≠ b) (h2 : ∀ w, Pipeline.arrRef spec2 w ≠ b) (hv0 : b ≠ main_v0) (hv2 : b ≠ main_v2)
    (hh : StableHlo.after hostOps2 (W4 m ρ c) (Proc.devRef .tc b) = W4 m ρ c (Proc.devRef .tc b)) :
    W6 m ρ c (Proc.devRef .tc b) = m ((c : Thread nD τ).loc b) :=
  (W6_of_ne m ρ c b h2).trans (hh.trans (W4_launch m ρ c b h0 h1 hv0 hv2))

/-! ## The two projections' outputs, from their regions' exits on -/

/-- The users' projection, as the second region leaves the buffers: nothing since the first region has written it. -/
theorem W4_v1 (c : Dev nD) : W4 m ρ c (Proc.devRef .tc main_v1) = (dat0 (V1 m ρ) c).arrAt 3 cfg0.N :=
  calc W4 m ρ c (Proc.devRef .tc main_v1)
    _ = W3 m ρ c (Proc.devRef .tc main_v1) := W4_of_ne m ρ c main_v1 (by decide)
    _ = W2 m ρ c (Proc.devRef .tc main_v1) := host1_keeps (W2 m ρ c) main_v1 (by decide)
    _ = (dat0 (V1 m ρ) c).arrAt 3 cfg0.N := W2_arr m ρ c 3

/-- The games' projection, as the second region leaves it. -/
theorem W4_v3 (c : Dev nD) : W4 m ρ c (Proc.devRef .tc main_v3) = (dat1 (V3 m ρ) c).arrAt 3 cfg1.N :=
  W4_arr m ρ c 3

/-! ## The two results at the last boundary -/

theorem last_users (c : Dev nD) : W8 m ρ c (Proc.devRef .tc main_v45) = (dat3 (V7 m ρ) c).arrAt 5 cfg3.N :=
  W8_arr m ρ c 5
theorem last_games (c : Dev nD) : W8 m ρ c (Proc.devRef .tc main_v43) = (dat2 (V5 m ρ) c).arrAt 5 cfg2.N :=
  calc W8 m ρ c (Proc.devRef .tc main_v43)
    _ = W7 m ρ c (Proc.devRef .tc main_v43) := W8_of_ne m ρ c main_v43 (by decide)
    _ = W6 m ρ c (Proc.devRef .tc main_v43) := host3_keeps (W6 m ρ c) main_v43 (by decide)
    _ = (dat2 (V5 m ρ) c).arrAt 5 cfg2.N := W6_arr m ρ c 5

/-! ## What the last region (the users' combine) finds in its input arrays -/

theorem V7_v41 (c : Dev nD) : V7 m ρ c main_v41 = V5 m ρ c main_v41 :=
  calc W7 m ρ c (Proc.devRef .tc main_v41)
    _ = W6 m ρ c (Proc.devRef .tc main_v41) := host3_keeps (W6 m ρ c) main_v41 (by decide)
    _ = W5 m ρ c (Proc.devRef .tc main_v41) := W6_of_ne m ρ c main_v41 (by decide)
theorem V7_v1 (c : Dev nD) : V7 m ρ c main_v1 = (dat0 (V1 m ρ) c).arrAt 3 cfg0.N :=
  calc W7 m ρ c (Proc.devRef .tc main_v1)
    _ = W6 m ρ c (Proc.devRef .tc main_v1) := host3_keeps (W6 m ρ c) main_v1 (by decide)
    _ = W5 m ρ c (Proc.devRef .tc main_v1) := W6_of_ne m ρ c main_v1 (by decide)
    _ = W4 m ρ c (Proc.devRef .tc main_v1) := by host_untouched
    _ = (dat0 (V1 m ρ) c).arrAt 3 cfg0.N := W4_v1 m ρ c
theorem V7_arg9 (c : Dev nD) : V7 m ρ c main_arg9 = m ((c : Thread nD τ).loc main_arg9) :=
  (host3_keeps (W6 m ρ c) main_arg9 (by decide)).trans
    (W6_launch m ρ c main_arg9 (by decide) (by decide) (by decide) (by decide) (by decide) (by host_untouched))
theorem V7_arg11 (c : Dev nD) : V7 m ρ c main_arg11 = m ((c : Thread nD τ).loc main_arg11) :=
  (host3_keeps (W6 m ρ c) main_arg11 (by decide)).trans
    (W6_launch m ρ c main_arg11 (by decide) (by decide) (by decide) (by decide) (by decide) (by host_untouched))
theorem V7_v44 (c : Dev nD) (q : Fin 128) : V7 m ρ c main_v44 (ix2 (0 : Fin 1) q) = m ((c : Thread nD τ).loc main_arg10) (ix1 q) := by
  have h : StableHlo.after hostOps3 (W6 m ρ c) (Proc.devRef .tc main_v44)
      = fun i => shapeCast S1x128 (W6 m ρ c (Proc.devRef .tc main_arg10)) shapeCasts_S128_S1x128 i := by
    simp only [hostOps3]
    after_results
    rfl
  show StableHlo.after hostOps3 (W6 m ρ c) (Proc.devRef .tc main_v44) (ix2 (0 : Fin 1) q) = _
  rw [h]
  exact (row_of_vector _ q).trans (congrFun
    (W6_launch m ρ c main_arg10 (by decide) (by decide) (by decide) (by decide) (by decide) (by host_untouched)) (ix1 q))

/-! ## What the third region (the games' combine) finds in its input arrays -/

/-! ## The two segment means

The third host stretch computes, from the users' projection and the first edge list, the mean over the edges into each
game row, and from the games' projection and the second edge list the mean over the edges into each user row. Reading the
stretch's result buffer gives the chain of its operations over the three buffers it starts from; those three are a
projection's output and two launch arguments. The chain is the reference's own: the same gather, the same scatters and
the same broadcasts applied to the same arrays, the reference's spelling differing only in where its shape names and
dimension records are declared. The gather and the scatters are never opened. -/

theorem V5_v22 (c : Dev nD) : V5 m ρ c main_v22
    = Cert.ReferenceIdeal.Terms.segMeanGames (F := F) ((dat0 (V1 m ρ) c).arrAt 3 cfg0.N) (m ((c : Thread nD τ).loc main_arg12)) (m ((c : Thread nD τ).loc main_arg13)) := by
  show StableHlo.after hostOps2 (W4 m ρ c) (Proc.devRef .tc main_v22) = _
  simp only [hostOps2]
  after_results_simp
  rw [W4_v1 m ρ c, W4_launch m ρ c main_arg12 (by decide) (by decide) (by decide) (by decide),
    W4_launch m ρ c main_arg13 (by decide) (by decide) (by decide) (by decide)]
  generalize (dat0 (V1 m ρ) c).arrAt 3 cfg0.N = hu
  generalize m ((c : Thread nD τ).loc main_arg12) = src
  generalize m ((c : Thread nD τ).loc main_arg13) = dst
  unfold Cert.ReferenceIdeal.Terms.segMeanGames
  unfold Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_c Cert.ReferenceIdeal.Read.val_main_c_0 Cert.ReferenceIdeal.Read.val_main_v17
    Cert.ReferenceIdeal.Read.val_main_cst Cert.ReferenceIdeal.Read.val_main_v18 Cert.ReferenceIdeal.Read.val_main_v27
    Cert.ReferenceIdeal.Read.val_main_v26 Cert.ReferenceIdeal.Read.val_main_v25 Cert.ReferenceIdeal.Read.val_main_v24
    Cert.ReferenceIdeal.Read.val_main_v23 Cert.ReferenceIdeal.Read.val_main_v22 Cert.ReferenceIdeal.Read.val_main_v21
    Cert.ReferenceIdeal.Read.val_main_v20 Cert.ReferenceIdeal.Read.val_main_cst_1 Cert.ReferenceIdeal.Read.val_main_cst_2
    Cert.ReferenceIdeal.Read.val_main_cst_3
  rfl
theorem V5_v41 (c : Dev nD) : V5 m ρ c main_v41
    = Cert.ReferenceIdeal.Terms.segMeanUsers (F := F) ((dat1 (V3 m ρ) c).arrAt 3 cfg1.N) (m ((c : Thread nD τ).loc main_arg14)) (m ((c : Thread nD τ).loc main_arg15)) := by
  show StableHlo.after hostOps2 (W4 m ρ c) (Proc.devRef .tc main_v41) = _
  simp only [hostOps2]
  after_results_simp
  rw [W4_v3 m ρ c, W4_launch m ρ c main_arg14 (by decide) (by decide) (by decide) (by decide),
    W4_launch m ρ c main_arg15 (by decide) (by decide) (by decide) (by decide)]
  generalize (dat1 (V3 m ρ) c).arrAt 3 cfg1.N = hg
  generalize m ((c : Thread nD τ).loc main_arg14) = src
  generalize m ((c : Thread nD τ).loc main_arg15) = dst
  unfold Cert.ReferenceIdeal.Terms.segMeanUsers
  unfold Cert.ReferenceIdeal.Read.val_main_v40 Cert.ReferenceIdeal.Read.val_main_v39 Cert.ReferenceIdeal.Read.val_main_v38
    Cert.ReferenceIdeal.Read.val_main_v37 Cert.ReferenceIdeal.Read.val_main_v36 Cert.ReferenceIdeal.Read.val_main_v35
    Cert.ReferenceIdeal.Read.val_main_c_4 Cert.ReferenceIdeal.Read.val_main_c_5 Cert.ReferenceIdeal.Read.val_main_v42
    Cert.ReferenceIdeal.Read.val_main_cst_6 Cert.ReferenceIdeal.Read.val_main_v43 Cert.ReferenceIdeal.Read.val_main_v52
    Cert.ReferenceIdeal.Read.val_main_v51 Cert.ReferenceIdeal.Read.val_main_v50 Cert.ReferenceIdeal.Read.val_main_v49
    Cert.ReferenceIdeal.Read.val_main_v48 Cert.ReferenceIdeal.Read.val_main_v47 Cert.ReferenceIdeal.Read.val_main_v46
    Cert.ReferenceIdeal.Read.val_main_v45 Cert.ReferenceIdeal.Read.val_main_cst_7 Cert.ReferenceIdeal.Read.val_main_cst_8
    Cert.ReferenceIdeal.Read.val_main_cst_9
  rfl

theorem V5_v3 (c : Dev nD) : V5 m ρ c main_v3 = (dat1 (V3 m ρ) c).arrAt 3 cfg1.N :=
  calc W5 m ρ c (Proc.devRef .tc main_v3)
    _ = W4 m ρ c (Proc.devRef .tc main_v3) := by host_untouched
    _ = (dat1 (V3 m ρ) c).arrAt 3 cfg1.N := W4_v3 m ρ c
theorem V5_arg6 (c : Dev nD) : V5 m ρ c main_arg6 = m ((c : Thread nD τ).loc main_arg6) :=
  calc W5 m ρ c (Proc.devRef .tc main_arg6)
    _ = W4 m ρ c (Proc.devRef .tc main_arg6) := by host_untouched
    _ = m ((c : Thread nD τ).loc main_arg6) := W4_launch m ρ c main_arg6 (by decide) (by decide) (by decide) (by decide)
theorem V5_arg8 (c : Dev nD) : V5 m ρ c main_arg8 = m ((c : Thread nD τ).loc main_arg8) :=
  calc W5 m ρ c (Proc.devRef .tc main_arg8)
    _ = W4 m ρ c (Proc.devRef .tc main_arg8) := by host_untouched
    _ = m ((c : Thread nD τ).loc main_arg8) := W4_launch m ρ c main_arg8 (by decide) (by decide) (by decide) (by decide)
theorem V5_v42 (c : Dev nD) (q : Fin 128) : V5 m ρ c main_v42 (ix2 (0 : Fin 1) q) = m ((c : Thread nD τ).loc main_arg7) (ix1 q) := by
  have h : StableHlo.after hostOps2 (W4 m ρ c) (Proc.devRef .tc main_v42)
      = fun i => shapeCast S1x128 (W4 m ρ c (Proc.devRef .tc main_arg7)) shapeCasts_S128_S1x128 i := by
    simp only [hostOps2]
    after_results_simp
    rfl
  show StableHlo.after hostOps2 (W4 m ρ c) (Proc.devRef .tc main_v42) (ix2 (0 : Fin 1) q) = _
  rw [h]
  exact (row_of_vector _ q).trans (congrFun
    (W4_launch m ρ c main_arg7 (by decide) (by decide) (by decide) (by decide)) (ix1 q))

/-! ## What the second region (the games' projection) finds -/

theorem V3_arg1 (c : Dev nD) : V3 m ρ c main_arg1 = m ((c : Thread nD τ).loc main_arg1) :=
  W3_launch m ρ c main_arg1 (by decide) (by decide) (by decide)
theorem V3_arg4 (c : Dev nD) : V3 m ρ c main_arg4 = m ((c : Thread nD τ).loc main_arg4) :=
  W3_launch m ρ c main_arg4 (by decide) (by decide) (by decide)
theorem V3_v2 (c : Dev nD) (q : Fin 128) : V3 m ρ c main_v2 (ix2 (0 : Fin 1) q) = m ((c : Thread nD τ).loc main_arg5) (ix1 q) := by
  have h : StableHlo.after hostOps1 (W2 m ρ c) (Proc.devRef .tc main_v2)
      = fun i => shapeCast S1x128 (W2 m ρ c (Proc.devRef .tc main_arg5)) shapeCasts_S128_S1x128 i := by
    simp only [hostOps1]
    after_results
    rfl
  show StableHlo.after hostOps1 (W2 m ρ c) (Proc.devRef .tc main_v2) (ix2 (0 : Fin 1) q) = _
  rw [h]
  exact (row_of_vector _ q).trans (congrFun (W2_launch m ρ c main_arg5 (by decide) (by decide)) (ix1 q))

/-! ## What the first region (the users' projection) finds -/

theorem V1_arg0 (c : Dev nD) : V1 m ρ c main_arg0 = m ((c : Thread nD τ).loc main_arg0) :=
  W1_launch m ρ c main_arg0 (by decide)
theorem V1_arg2 (c : Dev nD) : V1 m ρ c main_arg2 = m ((c : Thread nD τ).loc main_arg2) :=
  W1_launch m ρ c main_arg2 (by decide)
theorem V1_v0 (c : Dev nD) (q : Fin 128) : V1 m ρ c main_v0 (ix2 (0 : Fin 1) q) = m ((c : Thread nD τ).loc main_arg3) (ix1 q) := by
  have h : StableHlo.after hostOps0 (W0 m ρ c) (Proc.devRef .tc main_v0)
      = fun i => shapeCast S1x128 (W0 m ρ c (Proc.devRef .tc main_arg3)) shapeCasts_S128_S1x128 i := by
    simp only [hostOps0]
    after_results
    rfl
  show StableHlo.after hostOps0 (W0 m ρ c) (Proc.devRef .tc main_v0) (ix2 (0 : Fin 1) q) = _
  rw [h]
  exact row_of_vector _ q

end Cert.KernelIdeal.Boundaries

end
-- ==== Proof.UsersProject.lean ====
import proofs.«179588_j89412629168563_1_alg».proof.Proof.Gen.KernelIdeal.Frame
import proofs.«179588_j89412629168563_1_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UsersProject

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

-- the TensorCore's buffer contents when the region is entered
variable (V : (c : Dev nD) → (b : Ref sig .tc) → Buf (Elt Ideal) ((c : Thread nD τ).loc b))

open Cert.ReferenceIdeal.Read (val_main_v4)
open Cert.ReferenceIdeal.Terms (proj_users_apply)

/-! ## The block product read at an index

The body multiplies a [5000, 64] block of rows by the whole [64, 128] weight into a zero accumulator. On the
extended reals its entry (p, q) is the sum over k of row p of the block at k times column q of the weight at k; the
narrowing of both operands to half precision before the product is the identity there. -/

theorem hz : (![0, 0] : Fin 2 → Nat) = fun _ => 0 := funext fun a => by fin_cases a <;> rfl

theorem lhs_axis0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_axis1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_axis0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_axis1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem block_product {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores, at (p, q) of the block: the positive part of (row p of the block) · (column q of the weight)
    plus the bias row at q. -/
theorem payload_apply (xb : Vec Ideal S5000x64 .f32) (wb : Vec Ideal S64x128 .f32) (bb : Vec Ideal S1x128 .f32) (p : Fin 5000) (q : Fin 128) :
    k0_pay1 (F := Ideal) xb wb bb (ix2 p q)
      = max ((∑ k : Fin 64, xb (ix2 p k) * wb (ix2 k q)) + bb (ix2 (0 : Fin 1) q)) (Ideal.ofBits .f32 0x00000000#32) := by
  unfold k0_pay1
  rw [ValueIdx.maximumf_apply, ValueIdx.addf_apply, block_product, ValueIdx.broadcastTo_1b_ab_apply, shapeCast_self]
  simp only [ValueIdx.truncf_apply, ValueIdx.broadcast_apply]
  rfl

/-! ## The blocks a grid point reads and the block it writes

Point t reads rows 5000·t … 5000·t + 4999 of x, the whole weight and the whole bias row, and writes the same rows
of the output. -/

theorem N_eq : cfg0.N = 20 := N_0

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 5000) : 5000 * t.val + p.val < 100000 := by
  have ht : t.val < 20 := lt_of_lt_of_eq t.isLt N_eq
  have := p.isLt; omega

theorem xblk_apply (c : Dev nD) (t : Fin cfg0.N) (p : Fin 5000) (k : Fin 64) :
    iblk0 V c 0 t (ix2 p k) = V c main_arg0 (ix2 ⟨5000 * t.val + p.val, row_lt t p⟩ k) := by
  show V c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

theorem wblk_apply (c : Dev nD) (t : Fin cfg0.N) (k : Fin 64) (q : Fin 128) :
    iblk0 V c 1 t (ix2 k q) = V c main_arg2 (ix2 k q) := by
  show V c main_arg2 (((cfg0.win 1).blk t).view.emb (ix2 k q)) = _
  refine congrArg _ (funext fun a => Fin.ext ?_)
  obtain ⟨-, -, e0, e1, -⟩ := idx_facts t
  match a with
  | ⟨0, _⟩ => show win0_1.index t (0 : Fin 2) * 64 + 1 * k.val = k.val; rw [e0]; omega
  | ⟨1, _⟩ => show win0_1.index t (1 : Fin 2) * 128 + 1 * q.val = q.val; rw [e1]; omega

theorem bblk_apply (c : Dev nD) (t : Fin cfg0.N) (q : Fin 128) :
    iblk0 V c 2 t (ix2 (0 : Fin 1) q) = V c main_v0 (ix2 (0 : Fin 1) q) := by
  show V c main_v0 (((cfg0.win 2).blk t).view.emb (ix2 (0 : Fin 1) q)) = _
  refine congrArg _ (funext fun a => Fin.ext ?_)
  obtain ⟨-, -, -, -, e0, e1, -⟩ := idx_facts t
  match a with
  | ⟨0, _⟩ => show win0_2.index t (0 : Fin 2) * 1 + 1 * (0 : Fin 1).val = (0 : Fin 1).val; rw [e0]; rfl
  | ⟨1, _⟩ => show win0_2.index t (1 : Fin 2) * 128 + 1 * q.val = q.val; rw [e1]; omega

theorem out_emb (t : Fin cfg0.N) (p : Fin 5000) (q : Fin 128) :
    ((cfg0.win 3).blk t).view.emb (ix2 p q) = ix2 ⟨5000 * t.val + p.val, row_lt t p⟩ q := by
  refine funext fun a => Fin.ext ?_
  obtain ⟨-, -, -, -, -, -, e0, e1⟩ := idx_facts t
  match a with
  | ⟨0, _⟩ => show win0_3.index t (0 : Fin 2) * 5000 + 1 * p.val = 5000 * t.val + p.val; rw [e0]; omega
  | ⟨1, _⟩ => show win0_3.index t (1 : Fin 2) * 128 + 1 * q.val = q.val; rw [e1]; omega

/-- What point t writes back is block t of the projection of the whole arrays. -/
theorem flushed_eq (c : Dev nD) (b : (⟨Cert.ReferenceIdeal.S128, .f32⟩ : BufTy).Contents (Elt Ideal))
    (hb : ∀ q : Fin 128, V c main_v0 (ix2 (0 : Fin 1) q) = b (ix1 q)) (t : Fin cfg0.N) :
    (dat0 (F := Ideal) V c).flushed 3 t
      = ((cfg0.win 3).blk t).view.read (Elt Ideal) (val_main_v4 (F := Ideal) (V c main_arg0) (V c main_arg2) b) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, ValueIdx.eq_ix2 j⟩
  show k0_pay1 (F := Ideal) (iblk0 V c 0 t) (iblk0 V c 1 t) (iblk0 V c 2 t) (ix2 p q)
    = val_main_v4 (F := Ideal) (V c main_arg0) (V c main_arg2) b (((cfg0.win 3).blk t).view.emb (ix2 p q))
  rw [payload_apply (iblk0 V c 0 t) (iblk0 V c 1 t) (iblk0 V c 2 t) p q, out_emb t p q, proj_users_apply, bblk_apply V c t q, hb q]
  refine congrArg (fun s => max (s + b (ix1 q)) _) (Finset.sum_congr rfl fun k _ => ?_)
  rw [xblk_apply V c t p k, wblk_apply V c t k q]

/-- Every index of the output lies in the block of the point its row falls in. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [N_eq]; omega⟩
  refine ⟨t, flush0_3 t, ?_⟩
  show i ∈ ((View.whole main_v1).slice (win0_3.rect t)).set
  rw [View.set_slice_whole, Rect.mem_set_unit]
  obtain ⟨-, -, -, -, -, -, e0, e1⟩ := idx_facts t
  intro a
  match a with
  | ⟨0, _⟩ => show win0_3.index t (0 : Fin 2) * 5000 ≤ (i 0).val ∧ (i 0).val < win0_3.index t (0 : Fin 2) * 5000 + 5000; rw [e0]; show (i 0).val / 5000 * 5000 ≤ (i 0).val ∧ (i 0).val < (i 0).val / 5000 * 5000 + 5000; omega
  | ⟨1, _⟩ => show win0_3.index t (1 : Fin 2) * 128 ≤ (i 1).val ∧ (i 1).val < win0_3.index t (1 : Fin 2) * 128 + 128; rw [e1]; omega

/-- After the last point the output array is the projection of the whole arrays the region found: every row block
    was written once, each with its rows of max (x · W + b, 0). -/
theorem array_eq (c : Dev nD) (b : (⟨Cert.ReferenceIdeal.S128, .f32⟩ : BufTy).Contents (Elt Ideal))
    (hb : ∀ q : Fin 128, V c main_v0 (ix2 (0 : Fin 1) q) = b (ix1 q)) :
    (dat0 (F := Ideal) V c).arrAt 3 cfg0.N
      = Cert.ReferenceIdeal.Read.val_main_v4 (F := Ideal) (V c main_arg0) (V c main_arg2) b :=
  (dat0 (F := Ideal) V c).arrAt_eq_of_cover 3 _ (fun t _ => flushed_eq V c b hb t) cover

end Cert.KernelIdeal.UsersProject

end
-- ==== Proof.GamesProject.lean ====
import proofs.«179588_j89412629168563_1_alg».proof.Proof.Gen.KernelIdeal.Frame
import proofs.«179588_j89412629168563_1_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GamesProject

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

-- the TensorCore's buffer contents when the region is entered
variable (V : (c : Dev nD) → (b : Ref sig .tc) → Buf (Elt Ideal) ((c : Thread nD τ).loc b))

open Cert.ReferenceIdeal.Read (val_main_v9)
open Cert.ReferenceIdeal.Terms (proj_games_apply)

/-! ## The block product read at an index

The body multiplies a [4000, 128] block of rows by the whole [128, 128] weight into a zero accumulator. On the
extended reals its entry (p, q) is the sum over k of row p of the block at k times column q of the weight at k; the
narrowing of both operands to half precision before the product is the identity there. -/

theorem hz : (![0, 0] : Fin 2 → Nat) = fun _ => 0 := funext fun a => by fin_cases a <;> rfl

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem block_product {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- What the body stores, at (p, q) of the block: the positive part of (row p of the block) · (column q of the weight)
    plus the bias row at q. -/
theorem payload_apply (xb : Vec Ideal S4000x128 .f32) (wb : Vec Ideal S128x128 .f32) (bb : Vec Ideal S1x128 .f32) (p : Fin 4000) (q : Fin 128) :
    k1_pay1 (F := Ideal) xb wb bb (ix2 p q)
      = max ((∑ k : Fin 128, xb (ix2 p k) * wb (ix2 k q)) + bb (ix2 (0 : Fin 1) q)) (Ideal.ofBits .f32 0x00000000#32) := by
  unfold k1_pay1
  rw [ValueIdx.maximumf_apply, ValueIdx.addf_apply, block_product, ValueIdx.broadcastTo_1b_ab_apply, shapeCast_self]
  simp only [ValueIdx.truncf_apply, ValueIdx.broadcast_apply]
  rfl

/-! ## The blocks a grid point reads and the block it writes

Point t reads rows 4000·t … 4000·t + 3999 of x, the whole weight and the whole bias row, and writes the same rows
of the output. -/

theorem N_eq : cfg1.N = 5 := N_1

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 4000) : 4000 * t.val + p.val < 20000 := by
  have ht : t.val < 5 := lt_of_lt_of_eq t.isLt N_eq
  have := p.isLt; omega

theorem xblk_apply (c : Dev nD) (t : Fin cfg1.N) (p : Fin 4000) (k : Fin 128) :
    iblk1 V c 0 t (ix2 p k) = V c main_arg1 (ix2 ⟨4000 * t.val + p.val, row_lt t p⟩ k) := by
  show V c main_arg1 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 4000 + 1 * p.val = 4000 * t.val + p.val; rw [e0]; omega
  | ⟨1, _⟩ => show win1_0.index t (1 : Fin 2) * 128 + 1 * k.val = k.val; rw [e1]; omega

theorem wblk_apply (c : Dev nD) (t : Fin cfg1.N) (k : Fin 128) (q : Fin 128) :
    iblk1 V c 1 t (ix2 k q) = V c main_arg4 (ix2 k q) := by
  show V c main_arg4 (((cfg1.win 1).blk t).view.emb (ix2 k q)) = _
  refine congrArg _ (funext fun a => Fin.ext ?_)
  obtain ⟨-, -, e0, e1, -⟩ := idx_facts t
  match a with
  | ⟨0, _⟩ => show win1_1.index t (0 : Fin 2) * 128 + 1 * k.val = k.val; rw [e0]; omega
  | ⟨1, _⟩ => show win1_1.index t (1 : Fin 2) * 128 + 1 * q.val = q.val; rw [e1]; omega

theorem bblk_apply (c : Dev nD) (t : Fin cfg1.N) (q : Fin 128) :
    iblk1 V c 2 t (ix2 (0 : Fin 1) q) = V c main_v2 (ix2 (0 : Fin 1) q) := by
  show V c main_v2 (((cfg1.win 2).blk t).view.emb (ix2 (0 : Fin 1) q)) = _
  refine congrArg _ (funext fun a => Fin.ext ?_)
  obtain ⟨-, -, -, -, e0, e1, -⟩ := idx_facts t
  match a with
  | ⟨0, _⟩ => show win1_2.index t (0 : Fin 2) * 1 + 1 * (0 : Fin 1).val = (0 : Fin 1).val; rw [e0]; rfl
  | ⟨1, _⟩ => show win1_2.index t (1 : Fin 2) * 128 + 1 * q.val = q.val; rw [e1]; omega

theorem out_emb (t : Fin cfg1.N) (p : Fin 4000) (q : Fin 128) :
    ((cfg1.win 3).blk t).view.emb (ix2 p q) = ix2 ⟨4000 * t.val + p.val, row_lt t p⟩ q := by
  refine funext fun a => Fin.ext ?_
  obtain ⟨-, -, -, -, -, -, e0, e1⟩ := idx_facts t
  match a with
  | ⟨0, _⟩ => show win1_3.index t (0 : Fin 2) * 4000 + 1 * p.val = 4000 * t.val + p.val; rw [e0]; omega
  | ⟨1, _⟩ => show win1_3.index t (1 : Fin 2) * 128 + 1 * q.val = q.val; rw [e1]; omega

/-- What point t writes back is block t of the projection of the whole arrays. -/
theorem flushed_eq (c : Dev nD) (b : (⟨Cert.ReferenceIdeal.S128, .f32⟩ : BufTy).Contents (Elt Ideal))
    (hb : ∀ q : Fin 128, V c main_v2 (ix2 (0 : Fin 1) q) = b (ix1 q)) (t : Fin cfg1.N) :
    (dat1 (F := Ideal) V c).flushed 3 t
      = ((cfg1.win 3).blk t).view.read (Elt Ideal) (val_main_v9 (F := Ideal) (V c main_arg1) (V c main_arg4) b) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, ValueIdx.eq_ix2 j⟩
  show k1_pay1 (F := Ideal) (iblk1 V c 0 t) (iblk1 V c 1 t) (iblk1 V c 2 t) (ix2 p q)
    = val_main_v9 (F := Ideal) (V c main_arg1) (V c main_arg4) b (((cfg1.win 3).blk t).view.emb (ix2 p q))
  rw [payload_apply (iblk1 V c 0 t) (iblk1 V c 1 t) (iblk1 V c 2 t) p q, out_emb t p q, proj_games_apply, bblk_apply V c t q, hb q]
  refine congrArg (fun s => max (s + b (ix1 q)) _) (Finset.sum_congr rfl fun k _ => ?_)
  rw [xblk_apply V c t p k, wblk_apply V c t k q]

/-- Every index of the output lies in the block of the point its row falls in. -/
theorem cover (i : S20000x128.Idx) : ∃ t : Fin cfg1.N, (cfg1.win 3).flush t = true ∧ i ∈ ((cfg1.win 3).blk t).view.set := by
  have hi0 : (i 0).val < 20000 := (i 0).isLt
  have hi1 : (i 1).val < 128 := (i 1).isLt
  let t : Fin cfg1.N := ⟨(i 0).val / 4000, by rw [N_eq]; omega⟩
  refine ⟨t, flush1_3 t, ?_⟩
  show i ∈ ((View.whole main_v3).slice (win1_3.rect t)).set
  rw [View.set_slice_whole, Rect.mem_set_unit]
  obtain ⟨-, -, -, -, -, -, e0, e1⟩ := idx_facts t
  intro a
  match a with
  | ⟨0, _⟩ => show win1_3.index t (0 : Fin 2) * 4000 ≤ (i 0).val ∧ (i 0).val < win1_3.index t (0 : Fin 2) * 4000 + 4000; rw [e0]; show (i 0).val / 4000 * 4000 ≤ (i 0).val ∧ (i 0).val < (i 0).val / 4000 * 4000 + 4000; omega
  | ⟨1, _⟩ => show win1_3.index t (1 : Fin 2) * 128 ≤ (i 1).val ∧ (i 1).val < win1_3.index t (1 : Fin 2) * 128 + 128; rw [e1]; omega

/-- After the last point the output array is the projection of the whole arrays the region found: every row block
    was written once, each with its rows of max (x · W + b, 0). -/
theorem array_eq (c : Dev nD) (b : (⟨Cert.ReferenceIdeal.S128, .f32⟩ : BufTy).Contents (Elt Ideal))
    (hb : ∀ q : Fin 128, V c main_v2 (ix2 (0 : Fin 1) q) = b (ix1 q)) :
    (dat1 (F := Ideal) V c).arrAt 3 cfg1.N
      = Cert.ReferenceIdeal.Read.val_main_v9 (F := Ideal) (V c main_arg1) (V c main_arg4) b :=
  (dat1 (F := Ideal) V c).arrAt_eq_of_cover 3 _ (fun t _ => flushed_eq V c b hb t) cover

end Cert.KernelIdeal.GamesProject

end
-- ==== Proof.GamesCombine.lean ====
import proofs.«179588_j89412629168563_1_alg».proof.Proof.Gen.KernelIdeal.Frame
import proofs.«179588_j89412629168563_1_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GamesCombine

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

-- the TensorCore's buffer contents when the region is entered
variable (V : (c : Dev nD) → (b : Ref sig .tc) → Buf (Elt Ideal) ((c : Thread nD τ).loc b))

/-! ## One block's arithmetic, entry by entry -/

/-- The block product's left operand is read at the output's row and the contraction index … -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- … and its right operand at the contraction index and the output's column. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] · [128,128] block product accumulated from zero, at (p, q): row p against column q. -/
theorem block_dot_apply {φ₁ φ₂ : FTy} (l : FVec Ideal S4000x128 φ₁) (w : FVec Ideal S128x128 φ₂) (p : Fin 4000) (q : Fin 128) :
    matmul dot_S4000x128_S128x128_S4000x128_1_0_0_1_n_n none l w (constant S4000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread down the block's rows, at (p, q), is the row's entry q. -/
theorem bias_rows_apply (bb : Vec Ideal S1x128 .f32) (p : Fin 4000) (q : Fin 128) :
    broadcastTo S4000x128 bb broadcasts_S1x128_S4000x128 (ix2 p q) = bb (ix2 (0 : Fin 1) q) :=
  broadcastTo_apply bb broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores for one block, at (p, q): (row p of the mean block · column q of Wl + bias q)
    + row p of the self block · column q of Wr. The narrowing of the operands is the identity on the extended reals. -/
theorem payload_apply (ma mb : Vec Ideal S4000x128 .f32) (wl wr : Vec Ideal S128x128 .f32) (bb : Vec Ideal S1x128 .f32) (p : Fin 4000) (q : Fin 128) :
    k2_pay1 (F := Ideal) ma mb wl wr bb (ix2 p q)
      = ((∑ k : Fin 128, ma (ix2 p k) * wl (ix2 k q)) + bb (ix2 (0 : Fin 1) q)) + ∑ k : Fin 128, mb (ix2 p k) * wr (ix2 k q) := by
  unfold k2_pay1
  simp only [shapeCast_self]
  rw [ValueIdx.addf_apply, ValueIdx.addf_apply, block_dot_apply, block_dot_apply, bias_rows_apply]
  simp only [ValueIdx.truncf_apply]

/-! ## What one grid point writes back -/

theorem hz : (![0, 0] : Fin 2 → Nat) = fun _ => 0 := funext fun a => by match a with | ⟨0, _⟩ => rfl | ⟨1, _⟩ => rfl

/-- The six block index maps, decided over the grid's points: the two row-blocked inputs and the output take block t
    of the rows at point t, the two weight matrices and the bias row are one block each. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is a row of the array: the row blocks tile it. -/
theorem row_lt (t : Fin cfg2.N) (p : Fin 4000) : t.val * 4000 + p.val < 20000 := by
  have ht : t.val < grid2.N := t.isLt
  have hN := N_2
  have := p.isLt
  omega

/-- Entry (p, k) of the mean block of point t is entry (4000 t + p, k) of the mean array. -/
theorem mean_block_apply (c : Dev nD) (t : Fin cfg2.N) (p : Fin 4000) (k : Fin 128) (r : Fin 20000) (hr : r.val = t.val * 4000 + p.val) :
    (iblk2 V c 0 t : Vec Ideal S4000x128 .f32) (ix2 p k) = V c main_v22 (ix2 r k) := by
  obtain ⟨e0, e1, -⟩ := block_indices t
  unfold iblk2
  rw [View.read_apply]
  show V c main_v22 _ = V c main_v22 _
  congr 1
  funext a
  apply Fin.ext
  match a with
  | ⟨0, _⟩ => show win2_0.index t (0 : Fin 2) * 4000 + 1 * p.val = r.val; omega
  | ⟨1, _⟩ => show win2_0.index t (1 : Fin 2) * 128 + 1 * k.val = k.val; omega

/-- The same for the self block. -/
theorem self_block_apply (c : Dev nD) (t : Fin cfg2.N) (p : Fin 4000) (k : Fin 128) (r : Fin 20000) (hr : r.val = t.val * 4000 + p.val) :
    (iblk2 V c 1 t : Vec Ideal S4000x128 .f32) (ix2 p k) = V c main_v3 (ix2 r k) := by
  obtain ⟨-, -, e0, e1, -⟩ := block_indices t
  unfold iblk2
  rw [View.read_apply]
  show V c main_v3 _ = V c main_v3 _
  congr 1
  funext a
  apply Fin.ext
  match a with
  | ⟨0, _⟩ => show win2_1.index t (0 : Fin 2) * 4000 + 1 * p.val = r.val; omega
  | ⟨1, _⟩ => show win2_1.index t (1 : Fin 2) * 128 + 1 * k.val = k.val; omega

/-- The left weight's one block is the whole matrix, at every point. -/
theorem wl_block_apply (c : Dev nD) (t : Fin cfg2.N) (k q : Fin 128) :
    (iblk2 V c 2 t : Vec Ideal S128x128 .f32) (ix2 k q) = V c main_arg6 (ix2 k q) := by
  obtain ⟨-, -, -, -, e0, e1, -⟩ := block_indices t
  unfold iblk2
  rw [View.read_apply]
  show V c main_arg6 _ = V c main_arg6 _
  congr 1
  funext a
  apply Fin.ext
  match a with
  | ⟨0, _⟩ => show win2_2.index t (0 : Fin 2) * 128 + 1 * k.val = k.val; omega
  | ⟨1, _⟩ => show win2_2.index t (1 : Fin 2) * 128 + 1 * q.val = q.val; omega

/-- So is the right weight's. -/
theorem wr_block_apply (c : Dev nD) (t : Fin cfg2.N) (k q : Fin 128) :
    (iblk2 V c 3 t : Vec Ideal S128x128 .f32) (ix2 k q) = V c main_arg8 (ix2 k q) := by
  obtain ⟨-, -, -, -, -, -, e0, e1, -⟩ := block_indices t
  unfold iblk2
  rw [View.read_apply]
  show V c main_arg8 _ = V c main_arg8 _
  congr 1
  funext a
  apply Fin.ext
  match a with
  | ⟨0, _⟩ => show win2_3.index t (0 : Fin 2) * 128 + 1 * k.val = k.val; omega
  | ⟨1, _⟩ => show win2_3.index t (1 : Fin 2) * 128 + 1 * q.val = q.val; omega

/-- And the bias row's. -/
theorem bias_block_apply (c : Dev nD) (t : Fin cfg2.N) (q : Fin 128) :
    (iblk2 V c 4 t : Vec Ideal S1x128 .f32) (ix2 (0 : Fin 1) q) = V c main_v42 (ix2 (0 : Fin 1) q) := by
  obtain ⟨-, -, -, -, -, -, -, -, e0, e1, -⟩ := block_indices t
  unfold iblk2
  rw [View.read_apply]
  show V c main_v42 _ = V c main_v42 _
  congr 1
  funext a
  apply Fin.ext
  match a with
  | ⟨0, _⟩ => show win2_4.index t (0 : Fin 2) * 1 + 1 * 0 = 0; omega
  | ⟨1, _⟩ => show win2_4.index t (1 : Fin 2) * 128 + 1 * q.val = q.val; omega

/-- Entry (p, q) of the output block of point t sits at (4000 t + p, q) of the output array. -/
theorem out_block_emb (t : Fin cfg2.N) (p : Fin 4000) (q : Fin 128) (r : Fin 20000) (hr : r.val = t.val * 4000 + p.val) :
    (((cfg2.win 5).blk t).view.emb (ix2 p q) : S20000x128.Idx) = ix2 r q := by
  obtain ⟨-, -, -, -, -, -, -, -, -, -, e0, e1⟩ := block_indices t
  funext a
  apply Fin.ext
  match a with
  | ⟨0, _⟩ => show win2_5.index t (0 : Fin 2) * 4000 + 1 * p.val = r.val; omega
  | ⟨1, _⟩ => show win2_5.index t (1 : Fin 2) * 128 + 1 * q.val = q.val; omega

/-- WHAT POINT t WRITES BACK is block t of the combine of the whole arrays: (mean · Wl + bias) + self · Wr on the rows
    4000 t … 4000 t + 3999, each read from the row block, the whole weights and the bias row the point holds. -/
theorem flushed_eq (c : Dev nD) (b : (⟨Cert.ReferenceIdeal.S128, .f32⟩ : BufTy).Contents (Elt Ideal))
    (hb : ∀ q : Fin 128, V c main_v42 (ix2 (0 : Fin 1) q) = b (ix1 q)) (t : Fin cfg2.N) :
    (dat2 (F := Ideal) V c).flushed 5 t = ((cfg2.win 5).blk t).view.read (Elt Ideal)
      (Cert.ReferenceIdeal.Terms.combineGames (F := Ideal) (V c main_v22) (V c main_v3) (V c main_arg6) (V c main_arg8) b) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, ValueIdx.eq_ix2 j⟩
  rw [View.read_apply, out_block_emb t p q ⟨t.val * 4000 + p.val, row_lt t p⟩ rfl, Cert.ReferenceIdeal.Terms.combine_games_apply]
  refine (payload_apply _ _ _ _ _ p q).trans ?_
  refine congrArg₂ (· + ·) (congrArg₂ (· + ·) (Finset.sum_congr rfl fun k _ => ?_) ?_) (Finset.sum_congr rfl fun k _ => ?_)
  · exact congrArg₂ (· * ·) (mean_block_apply V c t p k _ rfl) (wl_block_apply V c t k q)
  · exact (bias_block_apply V c t q).trans (hb q)
  · exact congrArg₂ (· * ·) (self_block_apply V c t p k _ rfl) (wr_block_apply V c t k q)

/-! ## From the blocks to the array -/

/-- Every index of the output lies in the block of the point its row falls in, and every point writes its block back. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  have hN := N_2
  let t : Fin cfg2.N := ⟨(i 0).val / 4000, by show (i 0).val / 4000 < grid2.N; omega⟩
  refine ⟨t, flush2_5 t, ?_⟩
  show i ∈ ((View.whole main_v43).slice (win2_5.rect t)).set
  rw [View.set_slice_whole, Rect.mem_set_unit]
  obtain ⟨-, -, -, -, -, -, -, -, -, -, e0, e1⟩ := block_indices t
  intro a
  match a with
  | ⟨0, _⟩ =>
    show win2_5.index t (0 : Fin 2) * 4000 ≤ (i 0).val ∧ (i 0).val < win2_5.index t (0 : Fin 2) * 4000 + 4000
    rw [e0]
    show (i 0).val / 4000 * 4000 ≤ (i 0).val ∧ (i 0).val < (i 0).val / 4000 * 4000 + 4000
    omega
  | ⟨1, _⟩ =>
    show win2_5.index t (1 : Fin 2) * 128 ≤ (i 1).val ∧ (i 1).val < win2_5.index t (1 : Fin 2) * 128 + 128
    rw [e1]
    omega

/-- After the last point the output array is the combine of the whole arrays the region found: every row block was
    written once, each with its rows of (mean · Wl + bias) + self · Wr. -/
theorem array_eq (c : Dev nD) (b : (⟨Cert.ReferenceIdeal.S128, .f32⟩ : BufTy).Contents (Elt Ideal))
    (hb : ∀ q : Fin 128, V c main_v42 (ix2 (0 : Fin 1) q) = b (ix1 q)) :
    (dat2 (F := Ideal) V c).arrAt 5 cfg2.N
      = Cert.ReferenceIdeal.Terms.combineGames (F := Ideal) (V c main_v22) (V c main_v3) (V c main_arg6) (V c main_arg8) b :=
  (dat2 (F := Ideal) V c).arrAt_eq_of_cover 5 _ (fun t _ => flushed_eq V c b hb t) cover

end Cert.KernelIdeal.GamesCombine

end
-- ==== Proof.UsersCombine.lean ====
import proofs.«179588_j89412629168563_1_alg».proof.Proof.Gen.KernelIdeal.Frame
import proofs.«179588_j89412629168563_1_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UsersCombine

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

-- the TensorCore's buffer contents when the region is entered
variable (V : (c : Dev nD) → (b : Ref sig .tc) → Buf (Elt Ideal) ((c : Thread nD τ).loc b))

/-! ## One block's arithmetic, entry by entry -/

/-- The block product's left operand is read at the output's row and the contraction index … -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … and its right operand at the contraction index and the output's column. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] · [128,128] block product accumulated from zero, at (p, q): row p against column q. -/
theorem block_dot_apply {φ₁ φ₂ : FTy} (l : FVec Ideal S5000x128 φ₁) (w : FVec Ideal S128x128 φ₂) (p : Fin 5000) (q : Fin 128) :
    matmul dot_S5000x128_S128x128_S5000x128_1_0_0_1_n_n none l w (constant S5000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread down the block's rows, at (p, q), is the row's entry q. -/
theorem bias_rows_apply (bb : Vec Ideal S1x128 .f32) (p : Fin 5000) (q : Fin 128) :
    broadcastTo S5000x128 bb broadcasts_S1x128_S5000x128 (ix2 p q) = bb (ix2 (0 : Fin 1) q) :=
  broadcastTo_apply bb broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores for one block, at (p, q): (row p of the mean block · column q of Wl + bias q)
    + row p of the self block · column q of Wr. The narrowing of the operands is the identity on the extended reals. -/
theorem payload_apply (ma mb : Vec Ideal S5000x128 .f32) (wl wr : Vec Ideal S128x128 .f32) (bb : Vec Ideal S1x128 .f32) (p : Fin 5000) (q : Fin 128) :
    k3_pay1 (F := Ideal) ma mb wl wr bb (ix2 p q)
      = ((∑ k : Fin 128, ma (ix2 p k) * wl (ix2 k q)) + bb (ix2 (0 : Fin 1) q)) + ∑ k : Fin 128, mb (ix2 p k) * wr (ix2 k q) := by
  unfold k3_pay1
  simp only [shapeCast_self]
  rw [ValueIdx.addf_apply, ValueIdx.addf_apply, block_dot_apply, block_dot_apply, bias_rows_apply]
  simp only [ValueIdx.truncf_apply]

/-! ## What one grid point writes back -/

theorem hz : (![0, 0] : Fin 2 → Nat) = fun _ => 0 := funext fun a => by match a with | ⟨0, _⟩ => rfl | ⟨1, _⟩ => rfl

/-- The six block index maps, decided over the grid's points: the two row-blocked inputs and the output take block t
    of the rows at point t, the two weight matrices and the bias row are one block each. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t is a row of the array: the row blocks tile it. -/
theorem row_lt (t : Fin cfg3.N) (p : Fin 5000) : t.val * 5000 + p.val < 100000 := by
  have ht : t.val < grid3.N := t.isLt
  have hN := N_3
  have := p.isLt
  omega

/-- Entry (p, k) of the mean block of point t is entry (5000 t + p, k) of the mean array. -/
theorem mean_block_apply (c : Dev nD) (t : Fin cfg3.N) (p : Fin 5000) (k : Fin 128) (r : Fin 100000) (hr : r.val = t.val * 5000 + p.val) :
    (iblk3 V c 0 t : Vec Ideal S5000x128 .f32) (ix2 p k) = V c main_v41 (ix2 r k) := by
  obtain ⟨e0, e1, -⟩ := block_indices t
  unfold iblk3
  rw [View.read_apply]
  show V c main_v41 _ = V c main_v41 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- The same for the self block. -/
theorem self_block_apply (c : Dev nD) (t : Fin cfg3.N) (p : Fin 5000) (k : Fin 128) (r : Fin 100000) (hr : r.val = t.val * 5000 + p.val) :
    (iblk3 V c 1 t : Vec Ideal S5000x128 .f32) (ix2 p k) = V c main_v1 (ix2 r k) := by
  obtain ⟨-, -, e0, e1, -⟩ := block_indices t
  unfold iblk3
  rw [View.read_apply]
  show V c main_v1 _ = V c main_v1 _
  congr 1
  funext a
  apply Fin.ext
  match a with
  | ⟨0, _⟩ => show win3_1.index t (0 : Fin 2) * 5000 + 1 * p.val = r.val; omega
  | ⟨1, _⟩ => show win3_1.index t (1 : Fin 2) * 128 + 1 * k.val = k.val; omega

/-- The left weight's one block is the whole matrix, at every point. -/
theorem wl_block_apply (c : Dev nD) (t : Fin cfg3.N) (k q : Fin 128) :
    (iblk3 V c 2 t : Vec Ideal S128x128 .f32) (ix2 k q) = V c main_arg9 (ix2 k q) := by
  obtain ⟨-, -, -, -, e0, e1, -⟩ := block_indices t
  unfold iblk3
  rw [View.read_apply]
  show V c main_arg9 _ = V c main_arg9 _
  congr 1
  funext a
  apply Fin.ext
  match a with
  | ⟨0, _⟩ => show win3_2.index t (0 : Fin 2) * 128 + 1 * k.val = k.val; omega
  | ⟨1, _⟩ => show win3_2.index t (1 : Fin 2) * 128 + 1 * q.val = q.val; omega

/-- So is the right weight's. -/
theorem wr_block_apply (c : Dev nD) (t : Fin cfg3.N) (k q : Fin 128) :
    (iblk3 V c 3 t : Vec Ideal S128x128 .f32) (ix2 k q) = V c main_arg11 (ix2 k q) := by
  obtain ⟨-, -, -, -, -, -, e0, e1, -⟩ := block_indices t
  unfold iblk3
  rw [View.read_apply]
  show V c main_arg11 _ = V c main_arg11 _
  congr 1
  funext a
  apply Fin.ext
  match a with
  | ⟨0, _⟩ => show win3_3.index t (0 : Fin 2) * 128 + 1 * k.val = k.val; omega
  | ⟨1, _⟩ => show win3_3.index t (1 : Fin 2) * 128 + 1 * q.val = q.val; omega

/-- And the bias row's. -/
theorem bias_block_apply (c : Dev nD) (t : Fin cfg3.N) (q : Fin 128) :
    (iblk3 V c 4 t : Vec Ideal S1x128 .f32) (ix2 (0 : Fin 1) q) = V c main_v44 (ix2 (0 : Fin 1) q) := by
  obtain ⟨-, -, -, -, -, -, -, -, e0, e1, -⟩ := block_indices t
  unfold iblk3
  rw [View.read_apply]
  show V c main_v44 _ = V c main_v44 _
  congr 1
  funext a
  apply Fin.ext
  match a with
  | ⟨0, _⟩ => show win3_4.index t (0 : Fin 2) * 1 + 1 * 0 = 0; omega
  | ⟨1, _⟩ => show win3_4.index t (1 : Fin 2) * 128 + 1 * q.val = q.val; omega

/-- Entry (p, q) of the output block of point t sits at (5000 t + p, q) of the output array. -/
theorem out_block_emb (t : Fin cfg3.N) (p : Fin 5000) (q : Fin 128) (r : Fin 100000) (hr : r.val = t.val * 5000 + p.val) :
    (((cfg3.win 5).blk t).view.emb (ix2 p q) : S100000x128.Idx) = ix2 r q := by
  obtain ⟨-, -, -, -, -, -, -, -, -, -, e0, e1⟩ := block_indices t
  funext a
  apply Fin.ext
  match a with
  | ⟨0, _⟩ => show win3_5.index t (0 : Fin 2) * 5000 + 1 * p.val = r.val; omega
  | ⟨1, _⟩ => show win3_5.index t (1 : Fin 2) * 128 + 1 * q.val = q.val; omega

/-- WHAT POINT t WRITES BACK is block t of the combine of the whole arrays: (mean · Wl + bias) + self · Wr on the rows
    5000 t … 5000 t + 4999, each read from the row block, the whole weights and the bias row the point holds. -/
theorem flushed_eq (c : Dev nD) (b : (⟨Cert.ReferenceIdeal.S128, .f32⟩ : BufTy).Contents (Elt Ideal))
    (hb : ∀ q : Fin 128, V c main_v44 (ix2 (0 : Fin 1) q) = b (ix1 q)) (t : Fin cfg3.N) :
    (dat3 (F := Ideal) V c).flushed 5 t = ((cfg3.win 5).blk t).view.read (Elt Ideal)
      (Cert.ReferenceIdeal.Terms.combineUsers (F := Ideal) (V c main_v41) (V c main_v1) (V c main_arg9) (V c main_arg11) b) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, ValueIdx.eq_ix2 j⟩
  rw [View.read_apply, out_block_emb t p q ⟨t.val * 5000 + p.val, row_lt t p⟩ rfl, Cert.ReferenceIdeal.Terms.combine_users_apply]
  refine (payload_apply _ _ _ _ _ p q).trans ?_
  refine congrArg₂ (· + ·) (congrArg₂ (· + ·) (Finset.sum_congr rfl fun k _ => ?_) ?_) (Finset.sum_congr rfl fun k _ => ?_)
  · exact congrArg₂ (· * ·) (mean_block_apply V c t p k _ rfl) (wl_block_apply V c t k q)
  · exact (bias_block_apply V c t q).trans (hb q)
  · exact congrArg₂ (· * ·) (self_block_apply V c t p k _ rfl) (wr_block_apply V c t k q)

/-! ## From the blocks to the array -/

/-- Every index of the output lies in the block of the point its row falls in, and every point writes its block back. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN := N_3
  let t : Fin cfg3.N := ⟨(i 0).val / 5000, by show (i 0).val / 5000 < grid3.N; omega⟩
  refine ⟨t, flush3_5 t, ?_⟩
  show i ∈ ((View.whole main_v45).slice (win3_5.rect t)).set
  rw [View.set_slice_whole, Rect.mem_set_unit]
  obtain ⟨-, -, -, -, -, -, -, -, -, -, e0, e1⟩ := block_indices t
  intro a
  match a with
  | ⟨0, _⟩ =>
    show win3_5.index t (0 : Fin 2) * 5000 ≤ (i 0).val ∧ (i 0).val < win3_5.index t (0 : Fin 2) * 5000 + 5000
    rw [e0]
    show (i 0).val / 5000 * 5000 ≤ (i 0).val ∧ (i 0).val < (i 0).val / 5000 * 5000 + 5000
    omega
  | ⟨1, _⟩ =>
    show win3_5.index t (1 : Fin 2) * 128 ≤ (i 1).val ∧ (i 1).val < win3_5.index t (1 : Fin 2) * 128 + 128
    rw [e1]
    omega

/-- After the last point the output array is the combine of the whole arrays the region found: every row block was
    written once, each with its rows of (mean · Wl + bias) + self · Wr. -/
theorem array_eq (c : Dev nD) (b : (⟨Cert.ReferenceIdeal.S128, .f32⟩ : BufTy).Contents (Elt Ideal))
    (hb : ∀ q : Fin 128, V c main_v44 (ix2 (0 : Fin 1) q) = b (ix1 q)) :
    (dat3 (F := Ideal) V c).arrAt 5 cfg3.N
      = Cert.ReferenceIdeal.Terms.combineUsers (F := Ideal) (V c main_v41) (V c main_v1) (V c main_arg9) (V c main_arg11) b :=
  (dat3 (F := Ideal) V c).arrAt_eq_of_cover 5 _ (fun t _ => flushed_eq V c b hb t) cover

end Cert.KernelIdeal.UsersCombine

end
-- ==== Proof.KernelResults.lean ====
/-
  The two results of the kernel program as functions of its arguments, on the extended reals.

  The program runs four row-tiled regions with host operations between them. Walking the buffers back from the last
  boundary: the users' result is the last region's output array, the combine of the users' segment mean (computed on the
  host from the second region's output, the projected game rows) with the first region's output (the projected user
  rows); the games' result is the third region's output array, the combine of the games' segment mean (from the projected
  user rows) with the projected game rows. Each region's output array is its dense formula of the arrays the region
  found, and those are arguments, reshaped bias rows, or earlier regions' outputs: so both results are the reference's
  own stages composed.
-/
import proofs.«179588_j89412629168563_1_alg».proof.Proof.Boundaries
import proofs.«179588_j89412629168563_1_alg».proof.Proof.UsersProject
import proofs.«179588_j89412629168563_1_alg».proof.Proof.GamesProject
import proofs.«179588_j89412629168563_1_alg».proof.Proof.GamesCombine
import proofs.«179588_j89412629168563_1_alg».proof.Proof.UsersCombine

noncomputable section

namespace Cert.KernelIdeal.Results

open Cert.KernelIdeal Cert.KernelIdeal.Gen
open Idealize.ShloMosaic Idealize.ShloMosaic.TcCoe Idealize.SL.Sem
open Cert.ReferenceIdeal.Read (val_main_v4 val_main_v9 val_main_v34 val_main_v59)

variable (m : (ℓ : Loc nD τ sig) → Buf (Elt Ideal) ℓ) (ρ : Dev nD → PrngReg)

/-- The first region leaves the projected user rows: max (x_user · W_user + b_user, 0). -/
theorem users_projected (c : Dev nD) :
    (dat0 (F := Ideal) (V1 m ρ) c).arrAt 3 cfg0.N = val_main_v4 (F := Ideal) (m ((c : Thread nD τ).loc main_arg0)) (m ((c : Thread nD τ).loc main_arg2)) (m ((c : Thread nD τ).loc main_arg3)) := by
  rw [UsersProject.array_eq (V1 m ρ) c (m ((c : Thread nD τ).loc main_arg3)) (fun q => Boundaries.V1_v0 m ρ c q), Boundaries.V1_arg0, Boundaries.V1_arg2]

/-- The second region leaves the projected game rows: max (x_game · W_game + b_game, 0). -/
theorem games_projected (c : Dev nD) :
    (dat1 (F := Ideal) (V3 m ρ) c).arrAt 3 cfg1.N = val_main_v9 (F := Ideal) (m ((c : Thread nD τ).loc main_arg1)) (m ((c : Thread nD τ).loc main_arg4)) (m ((c : Thread nD τ).loc main_arg5)) := by
  rw [GamesProject.array_eq (V3 m ρ) c (m ((c : Thread nD τ).loc main_arg5)) (fun q => Boundaries.V3_v2 m ρ c q), Boundaries.V3_arg1, Boundaries.V3_arg4]

/-- The games' result at the last boundary is the reference's. -/
theorem games_result (c : Dev nD) :
    W8 m ρ c (Proc.devRef .tc main_v43)
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  rw [Boundaries.last_games, GamesCombine.array_eq (V5 m ρ) c (m ((c : Thread nD τ).loc main_arg7)) (fun q => Boundaries.V5_v42 m ρ c q),
    Boundaries.V5_v22, Boundaries.V5_v3, Boundaries.V5_arg6, Boundaries.V5_arg8, users_projected, games_projected,
    Cert.ReferenceIdeal.Terms.out_games_eq]

/-- The users' result at the last boundary is the reference's. -/
theorem users_result (c : Dev nD) :
    W8 m ρ c (Proc.devRef .tc main_v45)
      = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg14)) (m ((c : Thread nD τ).loc main_arg15)) := by
  rw [Boundaries.last_users, UsersCombine.array_eq (V7 m ρ) c (m ((c : Thread nD τ).loc main_arg10)) (fun q => Boundaries.V7_v44 m ρ c q),
    Boundaries.V7_v41, Boundaries.V5_v41, Boundaries.V7_v1, Boundaries.V7_arg9, Boundaries.V7_arg11, users_projected, games_projected,
    Cert.ReferenceIdeal.Terms.out_users_eq]

end Cert.KernelIdeal.Results

end
-- ==== Proof.lean ====
/-
  The kernel program and the reference compute the same two arrays on the extended reals.

  Both project each node type's features by a dense layer followed by the positive part, average the projected rows of
  the other type along each edge list (a gather by the sources, a sum per destination, a division by the number of
  arriving edges taken to be at least one), and combine, per node type, the averaged rows times one weight plus a bias
  with the node's own projected rows times another weight. The kernel program does the four dense steps in row-tiled
  kernels whose products take half-precision operands; on the extended reals the narrowing is the identity and a
  product into a zero accumulator is the plain sum over the contracted axis, which is also what the reference's
  dot_general is. The gathers, the per-destination sums and the divisions are the same host operations on both sides
  and are never opened: they are applied to arrays already shown equal. No law of the extended reals beyond reading
  both sides as the same sums is used, so the finiteness of the inputs plays no part.

  The three frames: the two kernel programs by their launch-and-run certificates; the reference by its run with the
  results dropped. Nothing was rewritten when the kernel program was idealized, so the idealization claim is empty.
-/
import proofs.«179588_j89412629168563_1_alg».proof.Defs
import proofs.«179588_j89412629168563_1_alg».proof.Proof.Gen.Kernel
import proofs.«179588_j89412629168563_1_alg».proof.Proof.Gen.Kernel.Skeleton
import proofs.«179588_j89412629168563_1_alg».proof.Proof.Gen.Kernel.Launch
import proofs.«179588_j89412629168563_1_alg».proof.Proof.Gen.Kernel.Points
import proofs.«179588_j89412629168563_1_alg».proof.Proof.Gen.Kernel.Frame
import proofs.«179588_j89412629168563_1_alg».proof.Proof.Gen.KernelIdeal
import proofs.«179588_j89412629168563_1_alg».proof.Proof.Gen.KernelIdeal.Skeleton
import proofs.«179588_j89412629168563_1_alg».proof.Proof.Gen.KernelIdeal.Launch
import proofs.«179588_j89412629168563_1_alg».proof.Proof.Gen.KernelIdeal.Points
import proofs.«179588_j89412629168563_1_alg».proof.Proof.Gen.KernelIdeal.Frame
import proofs.«179588_j89412629168563_1_alg».proof.Proof.Gen.ReferenceIdeal
import proofs.«179588_j89412629168563_1_alg».proof.Proof.Gen.ReferenceIdeal.Run
import proofs.«179588_j89412629168563_1_alg».proof.Proof.Gen.ReferenceIdeal.Read
import proofs.«179588_j89412629168563_1_alg».proof.Proof.Gen.Pre_finite_inputs
import proofs.«179588_j89412629168563_1_alg».proof.Proof.KernelIdealRun
import proofs.«179588_j89412629168563_1_alg».proof.Proof.KernelResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of host operations: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the sixteen arguments both programs end with the users' array and the games' array
    at the reference's last two stages of those arguments. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.KernelIdeal.Results.users_result m ρ c), (h c).2.1.trans (Cert.KernelIdeal.Results.games_result m ρ c), (h c).2.2⟩)
      (Cert.KernelIdeal.Whole.run_named m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15⟩ := hagree c
    refine ⟨(h c).1.trans ?_, (h c).2.1.trans ?_, (h c).2.2⟩
    · rw [Cert.ReferenceIdeal.Read.val_main_v59_eq, a0, a1, a2, a3, a4, a5, a9, a10, a11, a14, a15]
    · rw [Cert.ReferenceIdeal.Read.val_main_v34_eq, a0, a1, a2, a3, a4, a5, a6, a7, a8, a12, a13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
